-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2x2048 : Shape := ⟨2, ![2, 2048]⟩
abbrev S4096x1024 : Shape := ⟨2, ![4096, 1024]⟩
abbrev S1024x4096 : Shape := ⟨2, ![1024, 4096]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_arg5 : FVec F S4096x1024 .f32) (main_arg6 : FVec F S4096x1024 .f32) (main_arg7 : FVec F S1024x4096 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096x1024 .f32 := Host.absf main_arg5
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096x1024 .f32 := Host.absf main_arg6
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S1024x4096 .f32 := Host.absf main_arg7
  let main_cst_10 : FVec F S_ .f32 := constant S_ .f32 0x7F800000#32
  let main_v30 : FVec F S1024x4096 .f32 := broadcastInDim S1024x4096 ![] bcast_S_S1024x4096 main_cst_10
  let main_v31 : IVec S1024x4096 1 := cmpf .olt main_v29 main_v30
  let main_c_11 : IVec S_ 1 := constantI S_ 1 1#1
  let main_v32 : IVec S_ 1 := (fun x v => Host.reduce IntOp.andi x v reducesTo_S1024x4096_S_d0_1 h_S_) main_v31 main_c_11
  let main_v33 : IVec S_ 1 := andi main_v28 main_v32
  main_v33

def fn {F : FTy → Type} [FloatOps F] (main_arg0 : FVec F S2x2048x1024 .f32) (main_arg1 : IVec S2x2048 32) (main_arg2 : FVec F S4096x1024 .f32) (main_arg3 : FVec F S4096x1024 .f32) (main_arg4 : FVec F S1024x4096 .f32) (main_arg5 : FVec F S4096x1024 .f32) (main_arg6 : FVec F S4096x1024 .f32) (main_arg7 : FVec F S1024x4096 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S4096x1024 .f32 := Host.absf main_arg2
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x4096 .f32 := Host.absf main_arg4
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg5 main_arg6 main_arg7 main_v13 main_v16
-- ==== Kernel.lean ====
abbrev S2x2048x1024 : Shape := ⟨3, ![2, 2048, 1024]⟩
abbrev S2x2048 : Shape := ⟨2, ![2, 2048]⟩
abbrev S4096x1024 : Shape := ⟨2, ![4096, 1024]⟩
abbrev S1024x4096 : Shape := ⟨2, ![1024, 4096]⟩
abbrev S_ : Shape := ⟨0, ![]⟩
abbrev S2x2047 : Shape := ⟨2, ![2, 2047]⟩
abbrev S2x1 : Shape := ⟨2, ![2, 1]⟩
abbrev S4096x1 : Shape := ⟨2, ![4096, 1]⟩
abbrev S1024x1024 : Shape := ⟨2, ![1024, 1024]⟩
abbrev S256x1024 : Shape := ⟨2, ![256, 1024]⟩
abbrev S1024x256 : Shape := ⟨2, ![1024, 256]⟩
abbrev S1024x1 : Shape := ⟨2, ![1024, 1]⟩

abbrev nBuf : Space → Nat
  | .hbm => 23
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S2x2048, .i32⟩
  | .hbm, ⟨2, _⟩ => ⟨S4096x1024, .f32⟩
  | .hbm, ⟨3, _⟩ => ⟨S4096x1024, .f32⟩
  | .hbm, ⟨4, _⟩ => ⟨S1024x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S_, .i32⟩
  | .hbm, ⟨9, _⟩ => ⟨S2x2048, .i32⟩
  | .hbm, ⟨10, _⟩ => ⟨S2x2048, .i1⟩
  | .hbm, ⟨11, _⟩ => ⟨S2x2047, .i1⟩
  | .hbm, ⟨12, _⟩ => ⟨S2x2047, .i1⟩
  | .hbm, ⟨13, _⟩ => ⟨S2x2047, .i1⟩
  | .hbm, ⟨14, _⟩ => ⟨S_, .i1⟩
  | .hbm, ⟨15, _⟩ => ⟨S2x1, .i1⟩
  | .hbm, ⟨16, _⟩ => ⟨S2x2048, .i1⟩
  | .hbm, ⟨17, _⟩ => ⟨S4096x1, .i1⟩
  | .hbm, ⟨18, _⟩ => ⟨S4096x1, .f32⟩
  | .hbm, ⟨19, _⟩ => ⟨S4096x1024, .f32⟩
  | .hbm, ⟨20, _⟩ => ⟨S4096x1024, .bf16⟩
  | .hbm, ⟨21, _⟩ => ⟨S4096x1024, .f32⟩
  | .hbm, ⟨22, _⟩ => ⟨S2x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x256, .f32⟩
  | .local _ .vmem, ⟨7, _⟩ => ⟨S1024x256, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1024x256, .f32⟩
  | .local _ .vmem, ⟨13, _⟩ => ⟨S1024x256, .f32⟩
  | .local _ .vmem, ⟨14, _⟩ => ⟨S1024x1, .f32⟩
  | .local _ .vmem, ⟨15, _⟩ => ⟨S1024x1, .f32⟩
  | .local _ .vmem, ⟨16, _⟩ => ⟨S1024x1024, .f32⟩
  | .local _ .vmem, ⟨17, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bcast_S_S2x2048 : S_.BroadcastsInDim S2x2048 (![] : Fin 0 → Fin S2x2048.rank)
  slices_S2x2048_S2x2047_0_0 : S2x2048.Slices ![0, 0] S2x2047
  slices_S2x2048_S2x2047_0_1 : S2x2048.Slices ![0, 1] S2x2047
  bcast_S_S2x1 : S_.BroadcastsInDim S2x1 (![] : Fin 0 → Fin S2x1.rank)
  concatenates_S2x2047_S2x1_S2x2048_d1 : Shape.Concatenates [S2x2047, S2x1] S2x2048 1
  shapeCasts_S2x2048_S4096x1 : S2x2048.ShapeCasts S4096x1
  shapeCasts_S2x2048x1024_S4096x1024 : S2x2048x1024.ShapeCasts S4096x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S256x1024_S256x1024_0_0 : ∀ a, (![0, 0] : Fin 2 → Nat) a + S256x1024.size a ≤ S256x1024.size a
  h_S256x1024 : 0 < S256x1024.numel
  inb_S1024x256_S1024x256_0_0 : ∀ a, (![0, 0] : Fin 2 → Nat) a + S1024x256.size a ≤ S1024x256.size a
  h_S1024x256 : 0 < S1024x256.numel
  broadcasts_S1024x1_S1024x1024 : S1024x1.Broadcasts S1024x1024
  shapeCasts_S4096x1024_S2x2048x1024 : S4096x1024.ShapeCasts S2x2048x1024
  dot_S1024x1024_S256x1024_S1024x256_1_1_0_0_n_n_wf : DotDims.WF S1024x1024 S256x1024 S1024x256 [1] [1] [0] [0] [] []
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x4096.size a
  hwx0_3 : ∀ i : grid0.Coords, EltTy.bits .f32 = 32 ∨ (Rect.block (s := S1024x4096) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S4096x1024.size a
  hwx0_4 : ∀ i : grid0.Coords, EltTy.bits .f32 = 32 ∨ (Rect.block (s := S4096x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .f32 = 32 ∨ (Rect.block (s := S4096x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S1024x4096.size a
  hwx0_6 : ∀ i : grid0.Coords, EltTy.bits .f32 = 32 ∨ (Rect.block (s := S1024x4096) S1024x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S4096x1.size a
  hwx0_7 : ∀ i : grid0.Coords, EltTy.bits .f32 = 32 ∨ (Rect.block (s := S4096x1) S1024x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S4096x1024.size a
  hwx0_8 : ∀ i : grid0.Coords, EltTy.bits .f32 = 32 ∨ (Rect.block (s := S4096x1024) S1024x1024.size (cc0_transform_8 i) (hinb0_8 i)).WholeWords (EltTy.packing .f32)

variable [Facts₀]

def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v10) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1024x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1024x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1024x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2x2048x1024 : Shape := ⟨3, ![2, 2048, 1024]⟩
abbrev S2x2048 : Shape := ⟨2, ![2, 2048]⟩
abbrev S4096x1024 : Shape := ⟨2, ![4096, 1024]⟩
abbrev S1024x4096 : Shape := ⟨2, ![1024, 4096]⟩
abbrev S_ : Shape := ⟨0, ![]⟩
abbrev S2x2047 : Shape := ⟨2, ![2, 2047]⟩
abbrev S2x1 : Shape := ⟨2, ![2, 1]⟩
abbrev S2x2048x4096 : Shape := ⟨3, ![2, 2048, 4096]⟩
abbrev S2x2048x1 : Shape := ⟨3, ![2, 2048, 1]⟩

abbrev nBuf : Space → Nat
  | .hbm => 46
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048, .i32⟩
  | .hbm, ⟨2, _⟩ => ⟨S4096x1024, .f32⟩
  | .hbm, ⟨3, _⟩ => ⟨S4096x1024, .f32⟩
  | .hbm, ⟨4, _⟩ => ⟨S1024x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S_, .i32⟩
  | .hbm, ⟨9, _⟩ => ⟨S2x2048, .i32⟩
  | .hbm, ⟨10, _⟩ => ⟨S2x2048, .i1⟩
  | .hbm, ⟨11, _⟩ => ⟨S2x2047, .i1⟩
  | .hbm, ⟨12, _⟩ => ⟨S2x2047, .i1⟩
  | .hbm, ⟨13, _⟩ => ⟨S2x2047, .i1⟩
  | .hbm, ⟨14, _⟩ => ⟨S_, .i1⟩
  | .hbm, ⟨15, _⟩ => ⟨S2x1, .i1⟩
  | .hbm, ⟨16, _⟩ => ⟨S2x2048, .i1⟩
  | .hbm, ⟨17, _⟩ => ⟨S2x2048x4096, .f32⟩
  | .hbm, ⟨18, _⟩ => ⟨S2x2048x4096, .f32⟩
  | .hbm, ⟨19, _⟩ => ⟨S2x2048x4096, .f32⟩
  | .hbm, ⟨20, _⟩ => ⟨S_, .f32⟩
  | .hbm, ⟨21, _⟩ => ⟨S2x2048x4096, .f32⟩
  | .hbm, ⟨22, _⟩ => ⟨S2x2048x4096, .f32⟩
  | .hbm, ⟨23, _⟩ => ⟨S_, .f32⟩
  | .hbm, ⟨24, _⟩ => ⟨S2x2048x4096, .f32⟩
  | .hbm, ⟨25, _⟩ => ⟨S2x2048x4096, .f32⟩
  | .hbm, ⟨26, _⟩ => ⟨S2x2048x4096, .f32⟩
  | .hbm, ⟨27, _⟩ => ⟨S2x2048x4096, .f32⟩
  | .hbm, ⟨28, _⟩ => ⟨S2x2048x4096, .f32⟩
  | .hbm, ⟨29, _⟩ => ⟨S2x2048x1024, .f32⟩
  | .hbm, ⟨30, _⟩ => ⟨S2x2048x4096, .f32⟩
  | .hbm, ⟨31, _⟩ => ⟨S2x2048x4096, .f32⟩
  | .hbm, ⟨32, _⟩ => ⟨S2x2048x4096, .f32⟩
  | .hbm, ⟨33, _⟩ => ⟨S_, .f32⟩
  | .hbm, ⟨34, _⟩ => ⟨S2x2048x4096, .f32⟩
  | .hbm, ⟨35, _⟩ => ⟨S2x2048x4096, .f32⟩
  | .hbm, ⟨36, _⟩ => ⟨S_, .f32⟩
  | .hbm, ⟨37, _⟩ => ⟨S2x2048x4096, .f32⟩
  | .hbm, ⟨38, _⟩ => ⟨S2x2048x4096, .f32⟩
  | .hbm, ⟨39, _⟩ => ⟨S2x2048x4096, .f32⟩
  | .hbm, ⟨40, _⟩ => ⟨S2x2048x4096, .f32⟩
  | .hbm, ⟨41, _⟩ => ⟨S2x2048x4096, .f32⟩
  | .hbm, ⟨42, _⟩ => ⟨S2x2048x1024, .f32⟩
  | .hbm, ⟨43, _⟩ => ⟨S2x2048x1, .i1⟩
  | .hbm, ⟨44, _⟩ => ⟨S2x2048x1024, .i1⟩
  | .hbm, ⟨45, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_call2_v0 : Ref sig .tc := ⟨.hbm, 44, rfl⟩
abbrev main_v18 : Ref sig .tc := ⟨.hbm, 45, rfl⟩

abbrev nD : Nat := 1
abbrev τ : Topo := Topo.v7x

variable {F : FTy → Type} [FloatOps F]

class Facts₀ : Prop where
  bcast_S_S2x2048 : S_.BroadcastsInDim S2x2048 (![] : Fin 0 → Fin S2x2048.rank)
  slices_S2x2048_S2x2047_0_0 : S2x2048.Slices ![0, 0] S2x2047
  slices_S2x2048_S2x2047_0_1 : S2x2048.Slices ![0, 1] S2x2047
  bcast_S_S2x1 : S_.BroadcastsInDim S2x1 (![] : Fin 0 → Fin S2x1.rank)
  concatenates_S2x2047_S2x1_S2x2048_d1 : Shape.Concatenates [S2x2047, S2x1] S2x2048 1
  bcast_S_S2x2048x4096 : S_.BroadcastsInDim S2x2048x4096 (![] : Fin 0 → Fin S2x2048x4096.rank)
  bcast_S2x2048_S2x2048x1_0_1 : S2x2048.BroadcastsInDim S2x2048x1 (![0, 1] : Fin 2 → Fin S2x2048x1.rank)
  bcast_S2x2048x1_S2x2048x1024_0_1_2 : S2x2048x1.BroadcastsInDim S2x2048x1024 (![0, 1, 2] : Fin 3 → Fin S2x2048x1024.rank)
  dot_S2x2048x1024_S4096x1024_S2x2048x4096_2_1_01_0_n_n_wf : DotDims.WF S2x2048x1024 S4096x1024 S2x2048x4096 [2] [1] [0, 1] [0] [] []
  dot_S2x2048x4096_S1024x4096_S2x2048x1024_2_1_01_0_n_n_wf : DotDims.WF S2x2048x4096 S1024x4096 S2x2048x1024 [2] [1] [0, 1] [0] [] []

variable [Facts₀]

def dot_S2x2048x1024_S4096x1024_S2x2048x4096_2_1_01_0_n_n : DotDims S2x2048x1024 S4096x1024 S2x2048x4096 where
  lhsContracting := [2]
  rhsContracting := [1]
  lhsNonContracting := [0, 1]
  rhsNonContracting := [0]
  lhsBatch := []
  rhsBatch := []
  wf := dot_S2x2048x1024_S4096x1024_S2x2048x4096_2_1_01_0_n_n_wf
def dot_S2x2048x4096_S1024x4096_S2x2048x1024_2_1_01_0_n_n : DotDims S2x2048x4096 S1024x4096 S2x2048x1024 where
  lhsContracting := [2]
  rhsContracting := [1]
  lhsNonContracting := [0, 1]
  rhsNonContracting := [0]
  lhsBatch := []
  rhsBatch := []
  wf := dot_S2x2048x4096_S1024x4096_S2x2048x1024_2_1_01_0_n_n_wf

class Facts : Prop extends Facts₀ where

variable [Facts]
-- ==== Proof.Pieces.lean ====
/-
  What one grid point does to the output block, as one pure function of the blocks it loads.

  At a point the body loads the token block `x`, the gate column `g`, the three weight blocks of each
  expert and the output block's previous contents `prev`, and leaves
      (prev + g * (silu (x vgᵀ) * (x vuᵀ)) vdᵀ) + (1 - g) * (silu (x lgᵀ) * (x luᵀ)) ldᵀ
  in the output block (`step`). At the first point of a row block `prev` is the zero block the body has
  just stored; at the others it is what the point before left.
-/
import proofs.«425629_j65317862638204_3_alg».proof.Proof.Gen.KernelIdeal.Frame
import Idealize.ShloMosaic.Lib.Pipeline.Value
import Idealize.ShloMosaic.Lib.Tactic

set_option maxRecDepth 16384

noncomputable section

namespace Cert.KernelIdeal.Body

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- One grid point's update of the output block. -/
def step (x : Vec F S1024x1024 .bf16) (g : Vec F S1024x1 .f32) (vg vu : Vec F S256x1024 .f32) (vd : Vec F S1024x256 .f32)
    (lg lu : Vec F S256x1024 .f32) (ld : Vec F S1024x256 .f32) (prev : Vec F S1024x1024 .f32) : Vec F S1024x1024 .f32 :=
  k0_pay1 (k0_pay3 x) (k0_pay4 g) (k0_pay6 lu) (k0_pay7 x lg) (k0_pay8 x lg) ld (k0_pay5 x g vg vu vd prev)

/-- The zero block stored at the first point of a row block. -/
abbrev zeros : Vec F S1024x1024 .f32 := k0_pay2

/-- A load of the whole block after a last store of the whole block reads that store's payload, whatever was
    stored before. -/
theorem readCov_last {Val : EltTy → Type} [∀ e, Nonempty (Val e)] {sig' : RefSig} {κ : Kind} {sp : Space} {S : Shape} {e : EltTy}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- At a point that is not the first of its row block, the output block ends at `step` of the loaded blocks and
    the previous contents. -/
theorem out_B (c : Dev nD) (i : grid0.Coords) (arg2 : Memref sig .tc .vmem S1024x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x256 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1024x256 .f32) (harg8 : arg8.IsWhole) (arg9 : Memref sig .tc .vmem S1024x1 .f32) (harg9 : arg9.IsWhole) (arg10 : Memref sig .tc .vmem S1024x1024 .f32) (harg10 : arg10.IsWhole) (hc0 : ¬cond0_0 i)
    (x0 : Vec F S1024x1024 .bf16) (x1 : Vec F S256x1024 .f32) (x2 : Vec F S256x1024 .f32) (x3 : Vec F S1024x256 .f32) (x4 : Vec F S256x1024 .f32) (x5 : Vec F S256x1024 .f32) (x6 : Vec F S1024x256 .f32) (x7 : Vec F S1024x1 .f32) (xo8 : Vec F S1024x1024 .f32) :
    out0_B_8 c i arg2 harg2 arg3 harg3 arg4 harg4 arg5 harg5 arg6 harg6 arg7 harg7 arg8 harg8 arg9 harg9 arg10 harg10 hc0 x0 x1 x2 x3 x4 x5 x6 x7 xo8 = step x0 x7 x1 x2 x3 x4 x5 x6 xo8 := by
  unfold out0_B_8
  rw [View.read_writes_eq_canon _ _ _ (cover0_B_8 c i arg2 harg2 arg3 harg3 arg4 harg4 arg5 harg5 arg6 harg6 arg7 harg7 arg8 harg8 arg9 harg9 arg10 harg10 hc0 x0 x1 x2 x3 x4 x5 x6 x7 xo8)]
  unfold kernelRun0_B
  dsimp only
  sl_unfold_words
  rw [View.canon_cons_unit_zero (S := S1024x1024) hz]
  unfold step
  simp only [View.readAt_eq_ld, harg2.read_unread, harg3.read_unread, harg4.read_unread, harg5.read_unread, harg6.read_unread,
    harg7.read_unread, harg8.read_unread, harg9.read_unread, harg10.read_unread,
    View.ld_unit_zero (S := S1024x1024) hz, View.ld_unit_zero (S := S256x1024) hz, View.ld_unit_zero (S := S1024x256) hz,
    View.ld_unit_zero (S := S1024x1) hz, readCov_last (S := S1024x1024) _ hz]

/-- At the first point of a row block the body first stores the zero block, so the output block ends at `step` of
    the loaded blocks and zeros. -/
theorem out_A (c : Dev nD) (i : grid0.Coords) (arg2 : Memref sig .tc .vmem S1024x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x256 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1024x256 .f32) (harg8 : arg8.IsWhole) (arg9 : Memref sig .tc .vmem S1024x1 .f32) (harg9 : arg9.IsWhole) (arg10 : Memref sig .tc .vmem S1024x1024 .f32) (harg10 : arg10.IsWhole) (hc0 : cond0_0 i)
    (x0 : Vec F S1024x1024 .bf16) (x1 : Vec F S256x1024 .f32) (x2 : Vec F S256x1024 .f32) (x3 : Vec F S1024x256 .f32) (x4 : Vec F S256x1024 .f32) (x5 : Vec F S256x1024 .f32) (x6 : Vec F S1024x256 .f32) (x7 : Vec F S1024x1 .f32) :
    out0_A_8 c i arg2 harg2 arg3 harg3 arg4 harg4 arg5 harg5 arg6 harg6 arg7 harg7 arg8 harg8 arg9 harg9 arg10 harg10 hc0 x0 x1 x2 x3 x4 x5 x6 x7 = step x0 x7 x1 x2 x3 x4 x5 x6 zeros := by
  unfold out0_A_8
  rw [View.read_writes_eq_canon _ _ _ (cover0_A_8 c i arg2 harg2 arg3 harg3 arg4 harg4 arg5 harg5 arg6 harg6 arg7 harg7 arg8 harg8 arg9 harg9 arg10 harg10 hc0 x0 x1 x2 x3 x4 x5 x6 x7)]
  unfold kernelRun0_A
  dsimp only
  sl_unfold_words
  rw [View.canon_cons_unit_zero (S := S1024x1024) hz]
  unfold step
  simp only [View.readAt_eq_ld, harg2.read_unread, harg3.read_unread, harg4.read_unread, harg5.read_unread, harg6.read_unread,
    harg7.read_unread, harg8.read_unread, harg9.read_unread, harg10.read_unread,
    View.ld_unit_zero (S := S1024x1024) hz, View.ld_unit_zero (S := S256x1024) hz, View.ld_unit_zero (S := S1024x256) hz,
    View.ld_unit_zero (S := S1024x1) hz, readCov_last (S := S1024x1024) _ hz]

end Cert.KernelIdeal.Body

end
-- ==== Proof.StepValue.lean ====
/-
  One grid point's update read at an entry, on the extended reals.

  Both matrix products of the body contract the LAST axis of both operands, so entry (a, b) of a product is
  `∑ k, l (a, k) * r (b, k)`; a change of float format is the identity; the gate column is broadcast along the
  row. Entry (p, d) of the updated block is therefore
      (prev (p,d) + g p * ∑ s, act_v p s * vd (d,s)) + (1 - g p) * ∑ s, act_l p s * ld (d,s),
  with `act p s = (h p s * logistic (h p s)) * u p s` over the 256 features of the point's block.
-/
import proofs.«425629_j65317862638204_3_alg».proof.Proof.Pieces
import Idealize.ShloMosaic.Lib.ValueIdx
import Idealize.ShloMosaic.PureOps.Ideal.Laws

noncomputable section

open scoped BigOperators

namespace Cert.KernelIdeal.Body

open Idealize.ShloMosaic Idealize.ShloMosaic.TcCoe Idealize.ShloMosaic.ValueIdx
open Cert.KernelIdeal Cert.KernelIdeal.Gen

/-! ## The two products, entry by entry -/

theorem lhsA_0 (i : S1024x256.Idx) (q : dot_S1024x1024_S256x1024_S1024x256_1_1_0_0_n_n.contr.Idx) :
    (dot_S1024x1024_S256x1024_S1024x256_1_1_0_0_n_n.lhsIdx i q 0).val = (i 0).val := by
  unfold DotDims.lhsIdx
  rw [dif_neg (show ¬(0 : Fin S1024x1024.rank) ∈ dot_S1024x1024_S256x1024_S1024x256_1_1_0_0_n_n.lhsBatch by decide), dif_pos (show (0 : Fin S1024x1024.rank) ∈ dot_S1024x1024_S256x1024_S1024x256_1_1_0_0_n_n.lhsNonContracting by decide)]
  rfl
theorem lhsA_1 (i : S1024x256.Idx) (q : dot_S1024x1024_S256x1024_S1024x256_1_1_0_0_n_n.contr.Idx) :
    (dot_S1024x1024_S256x1024_S1024x256_1_1_0_0_n_n.lhsIdx i q 1).val = (q ⟨0, by decide⟩).val :=
  dot_S1024x1024_S256x1024_S1024x256_1_1_0_0_n_n.lhsIdx_val_of_single rfl i q
theorem rhsA_0 (i : S1024x256.Idx) (q : dot_S1024x1024_S256x1024_S1024x256_1_1_0_0_n_n.contr.Idx) :
    (dot_S1024x1024_S256x1024_S1024x256_1_1_0_0_n_n.rhsIdx i q 0).val = (i 1).val := by
  unfold DotDims.rhsIdx
  rw [dif_neg (show ¬(0 : Fin S256x1024.rank) ∈ dot_S1024x1024_S256x1024_S1024x256_1_1_0_0_n_n.rhsBatch by decide), dif_pos (show (0 : Fin S256x1024.rank) ∈ dot_S1024x1024_S256x1024_S1024x256_1_1_0_0_n_n.rhsNonContracting by decide)]
  rfl
theorem rhsA_1 (i : S1024x256.Idx) (q : dot_S1024x1024_S256x1024_S1024x256_1_1_0_0_n_n.contr.Idx) :
    (dot_S1024x1024_S256x1024_S1024x256_1_1_0_0_n_n.rhsIdx i q 1).val = (q ⟨0, by decide⟩).val :=
  dot_S1024x1024_S256x1024_S1024x256_1_1_0_0_n_n.rhsIdx_val_of_single rfl i q

theorem lhsB_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhsB_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhsB_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhsB_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- A token block against a block of 256 weight rows: entry (a, b) sums over the 1024 model coordinates. -/
theorem matmulA_apply (l : FVec Ideal S1024x1024 .bf16) (r : FVec Ideal S256x1024 .bf16) (a : Fin 1024) (b : Fin 256) :
    matmul dot_S1024x1024_S256x1024_S1024x256_1_1_0_0_n_n none l r (constant S1024x256 .f32 0x00000000#32) (ix2 a b) = ∑ k : Fin 1024, l (ix2 a k) * r (ix2 b k) := by
  simp only [matmul]
  rw [Ideal.matmul_constant_zero_apply, ← Equiv.sum_comp (contrEquiv1 dot_S1024x1024_S256x1024_S1024x256_1_1_0_0_n_n 1024 rfl rfl).symm]
  refine Finset.sum_congr rfl fun k _ => ?_
  have hk := contrEquiv1_symm_val dot_S1024x1024_S256x1024_S1024x256_1_1_0_0_n_n 1024 rfl rfl k
  have el : dot_S1024x1024_S256x1024_S1024x256_1_1_0_0_n_n.lhsIdx (ix2 a b) ((contrEquiv1 dot_S1024x1024_S256x1024_S1024x256_1_1_0_0_n_n 1024 rfl rfl).symm k) = ix2 a k := funext fun j => Fin.ext (by
    match j with
    | ⟨0, _⟩ => exact lhsA_0 _ _
    | ⟨1, _⟩ => exact (lhsA_1 _ _).trans hk)
  have er : dot_S1024x1024_S256x1024_S1024x256_1_1_0_0_n_n.rhsIdx (ix2 a b) ((contrEquiv1 dot_S1024x1024_S256x1024_S1024x256_1_1_0_0_n_n 1024 rfl rfl).symm k) = ix2 b k := funext fun j => Fin.ext (by
    match j with
    | ⟨0, _⟩ => exact rhsA_0 _ _
    | ⟨1, _⟩ => exact (rhsA_1 _ _).trans hk)
  rw [el, er]

/-- The activated features against a block of the down weights: entry (a, b) sums over the block's 256 features. -/
theorem matmulB_apply (l : FVec Ideal S1024x256 .bf16) (r : FVec Ideal S1024x256 .bf16) (a : Fin 1024) (b : Fin 1024) :
    matmul dot_S1024x256_S1024x256_S1024x1024_1_1_0_0_n_n none l r (constant S1024x1024 .f32 0x00000000#32) (ix2 a b) = ∑ k : Fin 256, l (ix2 a k) * r (ix2 b k) := by
  simp only [matmul]
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 a b) ((contrEquiv1 dot_S1024x256_S1024x256_S1024x1024_1_1_0_0_n_n 256 rfl rfl).symm k) = ix2 a k := funext fun j => Fin.ext (by
    match j with
    | ⟨0, _⟩ => exact lhsB_0 _ _
    | ⟨1, _⟩ => exact (lhsB_1 _ _).trans hk)
  have er : dot_S1024x256_S1024x256_S1024x1024_1_1_0_0_n_n.rhsIdx (ix2 a b) ((contrEquiv1 dot_S1024x256_S1024x256_S1024x1024_1_1_0_0_n_n 256 rfl rfl).symm k) = ix2 b k := funext fun j => Fin.ext (by
    match j with
    | ⟨0, _⟩ => exact rhsB_0 _ _
    | ⟨1, _⟩ => exact (rhsB_1 _ _).trans hk)
  rw [el, er]

/-- The float pattern of `1.0` is the real one. -/
theorem one_f32 : Ideal.ofBits .f32 0x3F800000#32 = 1 := by
  simp [Ideal.ofBits, Ideal.ieee, -EReal.coe_mul]; norm_num

/-! ## The update at an entry -/

/-- A token row's product with weight row `s` of a block. -/
def rowDot (x : Vec Ideal S1024x1024 .bf16) (w : Vec Ideal S256x1024 .f32) (p : Fin 1024) (s : Fin 256) : EReal :=
  ∑ e : Fin 1024, x (ix2 p e) * w (ix2 s e)

/-- The activated feature `s` of the block at token row `p`. -/
def actAt (x : Vec Ideal S1024x1024 .bf16) (wg wu : Vec Ideal S256x1024 .f32) (p : Fin 1024) (s : Fin 256) : EReal :=
  (rowDot x wg p s * Ideal.logistic (rowDot x wg p s)) * rowDot x wu p s

theorem step_apply (x : Vec Ideal S1024x1024 .bf16) (g : Vec Ideal S1024x1 .f32) (vg vu : Vec Ideal S256x1024 .f32)
    (vd : Vec Ideal S1024x256 .f32) (lg lu : Vec Ideal S256x1024 .f32) (ld : Vec Ideal S1024x256 .f32)
    (prev : Vec Ideal S1024x1024 .f32) (p d : Fin 1024) :
    step (F := Ideal) x g vg vu vd lg lu ld prev (ix2 p d)
      = (prev (ix2 p d) + g (ix2 p 0) * ∑ s : Fin 256, actAt x vg vu p s * vd (ix2 d s))
        + (1 - g (ix2 p 0)) * ∑ s : Fin 256, actAt x lg lu p s * ld (ix2 d s) := by
  have hb : ∀ (v : Vec Ideal S1024x1 .f32), broadcastTo S1024x1024 v broadcasts_S1024x1_S1024x1024 (ix2 p d) = v (ix2 p 0) := fun v =>
    broadcastTo_apply v broadcasts_S1024x1_S1024x1024 (ix2 p d) (ix2 p 0) (fun a => match a with
      | ⟨0, _⟩ => by show p.val = if (1024 : Nat) = 1 then 0 else p.val; rw [if_neg (by decide)]
      | ⟨1, _⟩ => by show 0 = if (1 : Nat) = 1 then 0 else d.val; rw [if_pos rfl])
  unfold step k0_pay1 k0_pay5 k0_pay3 k0_pay4 k0_pay6 k0_pay7 k0_pay8
  simp only [k0_pay3, k0_pay4, k0_pay6, k0_pay7, k0_pay8, shapeCast_self, addf, mulf, subf, hb, matmulB_apply, truncf, logistic, broadcast, matmulA_apply,
    Ideal.addf_def, Ideal.mulf_def, Ideal.subf_def, Ideal.truncf_def, Ideal.logistic_def, Scalar.ofBits, Ideal.ofBits_def,
    one_f32, actAt, rowDot]

end Cert.KernelIdeal.Body

end
-- ==== Proof.LibSums.lean ====
/-
  Two general facts about finite sums over `Fin`: a sum over `Fin N` of a function that vanishes from `n` on is
  the sum of its restriction to `Fin n`; and a sum over `Fin (B * S)` is the sum over `B` consecutive blocks of
  `S` terms.
-/
import Mathlib.Algebra.BigOperators.Fin
import Mathlib.Data.Fintype.BigOperators
import Mathlib.Data.Fin.SuccPred
import Mathlib.Logic.Equiv.Fin.Basic

namespace Cert.LibSums

/-- A function on `Fin N` that is `f` below `n` and zero from `n` on sums to the sum of `f`. -/
theorem sum_dite_lt {M : Type*} [AddCommMonoid M] {n N : ℕ} (h : n ≤ N) (f : Fin n → M) :
    ∑ k : Fin N, (if hk : k.val < n then f ⟨k.val, hk⟩ else 0) = ∑ k : Fin n, f k := by
  -- The inclusion `Fin n → Fin N` is injective, the summand vanishes off its range, and on its range the
  -- summand is `f`.
  refine (Fintype.sum_of_injective (Fin.castLE h) (Fin.castLE_injective h) f _ ?_ ?_).symm
  · intro i hi
    by_cases hk : i.val < n
    · exact absurd ⟨⟨i.val, hk⟩, Fin.ext rfl⟩ hi
    · simp only [hk, dite_false]
  · intro i
    have hi : (Fin.castLE h i).val < n := i.isLt
    simp only [hi, dite_true]
    rfl

/-- A sum over `B * S` indices, block by block. -/
theorem blocks_lt {B S : ℕ} (b : Fin B) (s : Fin S) : b.val * S + s.val < B * S :=
  calc b.val * S + s.val < b.val * S + S := Nat.add_lt_add_left s.isLt _
    _ = (b.val + 1) * S := (Nat.succ_mul _ _).symm
    _ ≤ B * S := Nat.mul_le_mul_right _ b.isLt

theorem sum_blocks {M : Type*} [AddCommMonoid M] (B S : ℕ) (f : Fin (B * S) → M) :
    ∑ b : Fin B, ∑ s : Fin S, f ⟨b.val * S + s.val, blocks_lt b s⟩ = ∑ k : Fin (B * S), f k := by
  -- The double sum is a sum over pairs `(b, s)`; the bijection `(b, s) ↦ s + S * b` onto `Fin (B * S)`
  -- carries each summand to the corresponding one.
  rw [← Fintype.sum_prod_type' (fun (b : Fin B) (s : Fin S) => f ⟨b.val * S + s.val, blocks_lt b s⟩)]
  refine Fintype.sum_equiv finProdFinEquiv _ _ ?_
  rintro ⟨b, s⟩
  refine congrArg f (Fin.ext ?_)
  show b.val * S + s.val = s.val + S * b.val
  rw [Nat.mul_comm, Nat.add_comm]

end Cert.LibSums
-- ==== Proof.Spec.lean ====
/-
  The mathematics of a two-expert gated MLP with a 0/1 gate, on the extended reals.

  For a token row `r` and an output column `d`, one expert's value is
      expert r d = ∑ f, act r f * WD d f,      act r f = (h r f * logistic (h r f)) * u r f,
  where `h` and `u` are the row's products with the gate and up weights. A kernel that walks the
  4096 features in 16 blocks of 256 keeps a running value
      acc 0 = 0,      acc (k+1) = (acc k + μ * P k) + (1 - μ) * Q k,
  with `P k`, `Q k` the two experts' sums over block `k` and `μ` the row's gate. For `μ = 1` the running
  value is the sum of the `P k`, for `μ = 0` the sum of the `Q k`: on the extended reals `1 * x = x`,
  `0 * x = 0` (also at the infinities), `1 - 1 = 0`, `1 - 0 = 1`, and addition is commutative and
  associative, so nothing here needs the summands to be finite. The block sums add up to the whole sum.
-/
import Idealize.ShloMosaic.PureOps.Ideal
import proofs.«425629_j65317862638204_3_alg».proof.Proof.LibSums

noncomputable section

open scoped BigOperators

namespace Cert.Gated

open Idealize.ShloMosaic

/-- The running value after `n` blocks: gate `μ`, the first expert's block sums `P`, the second's `Q`. -/
def acc (μ : EReal) (P Q : ℕ → EReal) : ℕ → EReal
  | 0 => 0
  | k + 1 => (acc μ P Q k + μ * P k) + (1 - μ) * Q k

theorem acc_zero (μ : EReal) (P Q : ℕ → EReal) : acc μ P Q 0 = 0 := rfl

theorem acc_succ (μ : EReal) (P Q : ℕ → EReal) (k : ℕ) :
    acc μ P Q (k + 1) = (acc μ P Q k + μ * P k) + (1 - μ) * Q k := rfl

/-- With the gate open (`μ = 1`) the running value is the sum of the first expert's block sums. -/
theorem acc_gate_one (P Q : ℕ → EReal) (n : ℕ) : acc 1 P Q n = ∑ k ∈ Finset.range n, P k := by
  induction n with
  | zero => rfl
  | succ n ih =>
    have h0 : (1 : EReal) - 1 = 0 := by
      rw [← EReal.coe_one, ← EReal.coe_sub, sub_self, EReal.coe_zero]
    rw [acc_succ, ih, Finset.sum_range_succ, one_mul, h0, zero_mul, add_zero]

/-- With the gate shut (`μ = 0`) it is the sum of the second expert's block sums. -/
theorem acc_gate_zero (P Q : ℕ → EReal) (n : ℕ) : acc 0 P Q n = ∑ k ∈ Finset.range n, Q k := by
  induction n with
  | zero => rfl
  | succ n ih =>
    rw [acc_succ, ih, Finset.sum_range_succ, zero_mul, add_zero, sub_zero, one_mul]

/-- A row's product with a weight row: `∑ e, X r e * W f e`. -/
def hid (X W : Fin 4096 → Fin 1024 → EReal) (r f : Fin 4096) : EReal := ∑ e : Fin 1024, X r e * W f e

/-- The activated feature: `silu` of the gate product times the up product. -/
def act (X WG WU : Fin 4096 → Fin 1024 → EReal) (r f : Fin 4096) : EReal :=
  (hid X WG r f * Ideal.logistic (hid X WG r f)) * hid X WU r f

/-- One expert's value at row `r`, column `d`: the activated features against the down weights. -/
def expert (X WG WU : Fin 4096 → Fin 1024 → EReal) (WD : Fin 1024 → Fin 4096 → EReal) (r : Fin 4096) (d : Fin 1024) : EReal :=
  ∑ f : Fin 4096, act X WG WU r f * WD d f

/-- Feature `s` of block `k`. -/
def feat (k : Fin 16) (s : Fin 256) : Fin 4096 := ⟨k.val * 256 + s.val, Cert.LibSums.blocks_lt k s⟩

/-- The expert's sum over block `k` of 256 features (zero past the sixteenth block). -/
def part (X WG WU : Fin 4096 → Fin 1024 → EReal) (WD : Fin 1024 → Fin 4096 → EReal) (r : Fin 4096) (d : Fin 1024) (k : ℕ) : EReal :=
  if h : k < 16 then ∑ s : Fin 256, act X WG WU r (feat ⟨k, h⟩ s) * WD d (feat ⟨k, h⟩ s) else 0

/-- The sixteen block sums add up to the expert's value. -/
theorem sum_part (X WG WU : Fin 4096 → Fin 1024 → EReal) (WD : Fin 1024 → Fin 4096 → EReal) (r : Fin 4096) (d : Fin 1024) :
    ∑ k ∈ Finset.range 16, part X WG WU WD r d k = expert X WG WU WD r d := by
  rw [Finset.sum_range]
  have hb := Cert.LibSums.sum_blocks 16 256 (fun f : Fin (16 * 256) => act X WG WU r f * WD d f)
  refine Eq.trans (Finset.sum_congr rfl fun k _ => ?_) hb
  unfold part
  rw [dif_pos k.isLt]
  rfl

/-- The value after all sixteen blocks, for a gate that is `1`. -/
theorem acc_final_one (X WG WU LG LU : Fin 4096 → Fin 1024 → EReal) (WD LD : Fin 1024 → Fin 4096 → EReal) (r : Fin 4096) (d : Fin 1024) :
    acc 1 (part X WG WU WD r d) (part X LG LU LD r d) 16 = expert X WG WU WD r d := by
  rw [acc_gate_one, sum_part]

/-- The value after all sixteen blocks, for a gate that is `0`. -/
theorem acc_final_zero (X WG WU LG LU : Fin 4096 → Fin 1024 → EReal) (WD LD : Fin 1024 → Fin 4096 → EReal) (r : Fin 4096) (d : Fin 1024) :
    acc 0 (part X WG WU WD r d) (part X LG LU LD r d) 16 = expert X LG LU LD r d := by
  rw [acc_gate_zero, sum_part]

end Cert.Gated

end
-- ==== Proof.Running.lean ====
/-
  The output block, point by point: after point `n` the block's entry (p, d) is the running value of the
  global token row `1024 * (n / 16) + p` after `n % 16 + 1` feature blocks.

  The grid is 4 row blocks by 16 feature blocks, the feature axis innermost. At point `n` the token block and the
  gate column are rows `1024 * (n / 16) ..`, the gate and up weight blocks are weight rows `256 * (n % 16) ..`, and
  the down weight block is the same range of columns. Read through those offsets, a point's two sums over its 256
  features are the two experts' block sums `Gated.part`, and one `step` is one step of `Gated.acc`; the first
  point of a row block starts from the zero block.
-/
import proofs.«425629_j65317862638204_3_alg».proof.Proof.StepValue
import proofs.«425629_j65317862638204_3_alg».proof.Proof.Spec

set_option maxRecDepth 16384

noncomputable section

open scoped BigOperators

namespace Cert.KernelIdeal.Body

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## The arrays as the region finds them, and the windows' blocks -/

/-- The tokens as rows (4096 of them), in the kernel's input format. -/
abbrev tokens (c : Dev nD) : Vec Ideal S4096x1024 .bf16 := V m c main_v10
/-- The gate as a column: one value per token row. -/
abbrev gates (c : Dev nD) : Vec Ideal S4096x1 .f32 := V m c main_v8
abbrev wVG (c : Dev nD) : Vec Ideal S4096x1024 .f32 := V m c main_arg2
abbrev wVU (c : Dev nD) : Vec Ideal S4096x1024 .f32 := V m c main_arg3
abbrev wVD (c : Dev nD) : Vec Ideal S1024x4096 .f32 := V m c main_arg4
abbrev wLG (c : Dev nD) : Vec Ideal S4096x1024 .f32 := V m c main_arg5
abbrev wLU (c : Dev nD) : Vec Ideal S4096x1024 .f32 := V m c main_arg6
abbrev wLD (c : Dev nD) : Vec Ideal S1024x4096 .f32 := V m c main_arg7

abbrev bTok (c : Dev nD) (t : Fin cfg0.N) : Vec Ideal S1024x1024 .bf16 := iblk m c 0 t
abbrev bVG (c : Dev nD) (t : Fin cfg0.N) : Vec Ideal S256x1024 .f32 := iblk m c 1 t
abbrev bVU (c : Dev nD) (t : Fin cfg0.N) : Vec Ideal S256x1024 .f32 := iblk m c 2 t
abbrev bVD (c : Dev nD) (t : Fin cfg0.N) : Vec Ideal S1024x256 .f32 := iblk m c 3 t
abbrev bLG (c : Dev nD) (t : Fin cfg0.N) : Vec Ideal S256x1024 .f32 := iblk m c 4 t
abbrev bLU (c : Dev nD) (t : Fin cfg0.N) : Vec Ideal S256x1024 .f32 := iblk m c 5 t
abbrev bLD (c : Dev nD) (t : Fin cfg0.N) : Vec Ideal S1024x256 .f32 := iblk m c 6 t
abbrev bGate (c : Dev nD) (t : Fin cfg0.N) : Vec Ideal S1024x1 .f32 := iblk m c 7 t

/-! ## Which block each window holds at point `t` (decided over the 64 points) -/

theorem idx0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
theorem idx1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)
theorem idx2 : ∀ t : Fin cfg0.N, win0_2.index t (0 : Fin 2) = t.val % 16 ∧ win0_2.index t (1 : Fin 2) = 0 :=
  (by decide +kernel : ∀ t : Fin grid0.N, win0_2.index t (0 : Fin 2) = t.val % 16 ∧ win0_2.index t (1 : Fin 2) = 0)
theorem idx3 : ∀ t : Fin cfg0.N, win0_3.index t (0 : Fin 2) = 0 ∧ win0_3.index t (1 : Fin 2) = t.val % 16 :=
  (by decide +kernel : ∀ t : Fin grid0.N, win0_3.index t (0 : Fin 2) = 0 ∧ win0_3.index t (1 : Fin 2) = t.val % 16)
theorem idx4 : ∀ t : Fin cfg0.N, win0_4.index t (0 : Fin 2) = t.val % 16 ∧ win0_4.index t (1 : Fin 2) = 0 :=
  (by decide +kernel : ∀ t : Fin grid0.N, win0_4.index t (0 : Fin 2) = t.val % 16 ∧ win0_4.index t (1 : Fin 2) = 0)
theorem idx5 : ∀ t : Fin cfg0.N, win0_5.index t (0 : Fin 2) = t.val % 16 ∧ win0_5.index t (1 : Fin 2) = 0 :=
  (by decide +kernel : ∀ t : Fin grid0.N, win0_5.index t (0 : Fin 2) = t.val % 16 ∧ win0_5.index t (1 : Fin 2) = 0)
theorem idx6 : ∀ t : Fin cfg0.N, win0_6.index t (0 : Fin 2) = 0 ∧ win0_6.index t (1 : Fin 2) = t.val % 16 :=
  (by decide +kernel : ∀ t : Fin grid0.N, win0_6.index t (0 : Fin 2) = 0 ∧ win0_6.index t (1 : Fin 2) = t.val % 16)
theorem idx7 : ∀ t : Fin cfg0.N, win0_7.index t (0 : Fin 2) = t.val / 16 ∧ win0_7.index t (1 : Fin 2) = 0 :=
  (by decide +kernel : ∀ t : Fin grid0.N, win0_7.index t (0 : Fin 2) = t.val / 16 ∧ win0_7.index t (1 : Fin 2) = 0)
theorem idx8 : ∀ t : Fin cfg0.N, win0_8.index t (0 : Fin 2) = t.val / 16 ∧ win0_8.index t (1 : Fin 2) = 0 :=
  (by decide +kernel : ∀ t : Fin grid0.N, win0_8.index t (0 : Fin 2) = t.val / 16 ∧ win0_8.index t (1 : Fin 2) = 0)

/-! ## The blocks read at an entry -/

/-- Row `a` of the token block is global token row `1024 * (t / 16) + a`. -/
theorem tok_read (c : Dev nD) (t : Fin cfg0.N) (a : Fin 1024) (e : Fin 1024) (g : Fin 4096) (hg : g.val = 1024 * (t.val / 16) + a.val) :
    bTok m c t (ix2 a e) = tokens m c (ix2 g e) := by
  show V m c main_v10 (((cfg0.win 0).blk t).view.emb (ix2 a e)) = V m c main_v10 (ix2 g e)
  refine congrArg _ (funext fun j => Fin.ext ?_)
  match j with
  | ⟨0, _⟩ => show win0_0.index t (0 : Fin 2) * 1024 + 1 * a.val = g.val; rw [(idx0 t).1]; omega
  | ⟨1, _⟩ => show win0_0.index t (1 : Fin 2) * 1024 + 1 * e.val = e.val; rw [(idx0 t).2]; omega

/-- Row `a` of the first expert's gate-weight block is weight row `256 * (t % 16) + a`. -/
theorem vg_read (c : Dev nD) (t : Fin cfg0.N) (a : Fin 256) (e : Fin 1024) (g : Fin 4096) (hg : g.val = (t.val % 16) * 256 + a.val) :
    bVG m c t (ix2 a e) = wVG m c (ix2 g e) := by
  show V m c main_arg2 (((cfg0.win 1).blk t).view.emb (ix2 a e)) = V m c main_arg2 (ix2 g e)
  refine congrArg _ (funext fun j => Fin.ext ?_)
  match j with
  | ⟨0, _⟩ => show win0_1.index t (0 : Fin 2) * 256 + 1 * a.val = g.val; rw [(idx1 t).1]; omega
  | ⟨1, _⟩ => show win0_1.index t (1 : Fin 2) * 1024 + 1 * e.val = e.val; rw [(idx1 t).2]; omega

/-- The same for its up weights. -/
theorem vu_read (c : Dev nD) (t : Fin cfg0.N) (a : Fin 256) (e : Fin 1024) (g : Fin 4096) (hg : g.val = (t.val % 16) * 256 + a.val) :
    bVU m c t (ix2 a e) = wVU m c (ix2 g e) := by
  show V m c main_arg3 (((cfg0.win 2).blk t).view.emb (ix2 a e)) = V m c main_arg3 (ix2 g e)
  refine congrArg _ (funext fun j => Fin.ext ?_)
  match j with
  | ⟨0, _⟩ => show win0_2.index t (0 : Fin 2) * 256 + 1 * a.val = g.val; rw [(idx2 t).1]; omega
  | ⟨1, _⟩ => show win0_2.index t (1 : Fin 2) * 1024 + 1 * e.val = e.val; rw [(idx2 t).2]; omega

/-- Column `s` of the first expert's down-weight block is weight column `256 * (t % 16) + s`. -/
theorem vd_read (c : Dev nD) (t : Fin cfg0.N) (a : Fin 1024) (s : Fin 256) (g : Fin 4096) (hg : g.val = (t.val % 16) * 256 + s.val) :
    bVD m c t (ix2 a s) = wVD m c (ix2 a g) := by
  show V m c main_arg4 (((cfg0.win 3).blk t).view.emb (ix2 a s)) = V m c main_arg4 (ix2 a g)
  refine congrArg _ (funext fun j => Fin.ext ?_)
  match j with
  | ⟨0, _⟩ => show win0_3.index t (0 : Fin 2) * 1024 + 1 * a.val = a.val; rw [(idx3 t).1]; omega
  | ⟨1, _⟩ => show win0_3.index t (1 : Fin 2) * 256 + 1 * s.val = g.val; rw [(idx3 t).2]; omega

/-- The second expert's gate weights. -/
theorem lg_read (c : Dev nD) (t : Fin cfg0.N) (a : Fin 256) (e : Fin 1024) (g : Fin 4096) (hg : g.val = (t.val % 16) * 256 + a.val) :
    bLG m c t (ix2 a e) = wLG m c (ix2 g e) := by
  show V m c main_arg5 (((cfg0.win 4).blk t).view.emb (ix2 a e)) = V m c main_arg5 (ix2 g e)
  refine congrArg _ (funext fun j => Fin.ext ?_)
  match j with
  | ⟨0, _⟩ => show win0_4.index t (0 : Fin 2) * 256 + 1 * a.val = g.val; rw [(idx4 t).1]; omega
  | ⟨1, _⟩ => show win0_4.index t (1 : Fin 2) * 1024 + 1 * e.val = e.val; rw [(idx4 t).2]; omega

/-- The second expert's up weights. -/
theorem lu_read (c : Dev nD) (t : Fin cfg0.N) (a : Fin 256) (e : Fin 1024) (g : Fin 4096) (hg : g.val = (t.val % 16) * 256 + a.val) :
    bLU m c t (ix2 a e) = wLU m c (ix2 g e) := by
  show V m c main_arg6 (((cfg0.win 5).blk t).view.emb (ix2 a e)) = V m c main_arg6 (ix2 g e)
  refine congrArg _ (funext fun j => Fin.ext ?_)
  match j with
  | ⟨0, _⟩ => show win0_5.index t (0 : Fin 2) * 256 + 1 * a.val = g.val; rw [(idx5 t).1]; omega
  | ⟨1, _⟩ => show win0_5.index t (1 : Fin 2) * 1024 + 1 * e.val = e.val; rw [(idx5 t).2]; omega

/-- The second expert's down weights. -/
theorem ld_read (c : Dev nD) (t : Fin cfg0.N) (a : Fin 1024) (s : Fin 256) (g : Fin 4096) (hg : g.val = (t.val % 16) * 256 + s.val) :
    bLD m c t (ix2 a s) = wLD m c (ix2 a g) := by
  show V m c main_arg7 (((cfg0.win 6).blk t).view.emb (ix2 a s)) = V m c main_arg7 (ix2 a g)
  refine congrArg _ (funext fun j => Fin.ext ?_)
  match j with
  | ⟨0, _⟩ => show win0_6.index t (0 : Fin 2) * 1024 + 1 * a.val = a.val; rw [(idx6 t).1]; omega
  | ⟨1, _⟩ => show win0_6.index t (1 : Fin 2) * 256 + 1 * s.val = g.val; rw [(idx6 t).2]; omega

/-- Row `a` of the gate column's block is the gate of global token row `1024 * (t / 16) + a`. -/
theorem gate_read (c : Dev nD) (t : Fin cfg0.N) (a : Fin 1024) (g : Fin 4096) (hg : g.val = 1024 * (t.val / 16) + a.val) :
    bGate m c t (ix2 a 0) = gates m c (ix2 g 0) := by
  show V m c main_v8 (((cfg0.win 7).blk t).view.emb (ix2 a 0)) = V m c main_v8 (ix2 g 0)
  refine congrArg _ (funext fun j => Fin.ext ?_)
  match j with
  | ⟨0, _⟩ => show win0_7.index t (0 : Fin 2) * 1024 + 1 * a.val = g.val; rw [(idx7 t).1]; omega
  | ⟨1, _⟩ => show win0_7.index t (1 : Fin 2) * 1 + 1 * 0 = 0; rw [(idx7 t).2]

/-! ## The arrays as functions of coordinates, and the running value -/

def X (c : Dev nD) : Fin 4096 → Fin 1024 → EReal := fun r e => tokens m c (ix2 r e)
def WG (c : Dev nD) : Fin 4096 → Fin 1024 → EReal := fun f e => wVG m c (ix2 f e)
def WU (c : Dev nD) : Fin 4096 → Fin 1024 → EReal := fun f e => wVU m c (ix2 f e)
def WD (c : Dev nD) : Fin 1024 → Fin 4096 → EReal := fun d f => wVD m c (ix2 d f)
def LG (c : Dev nD) : Fin 4096 → Fin 1024 → EReal := fun f e => wLG m c (ix2 f e)
def LU (c : Dev nD) : Fin 4096 → Fin 1024 → EReal := fun f e => wLU m c (ix2 f e)
def LD (c : Dev nD) : Fin 1024 → Fin 4096 → EReal := fun d f => wLD m c (ix2 d f)
/-- The gate of token row `r`. -/
def gate (c : Dev nD) (r : Fin 4096) : EReal := gates m c (ix2 r 0)

/-- Token row `r`, column `d`, after `n` feature blocks. -/
def running (c : Dev nD) (r : Fin 4096) (d : Fin 1024) (n : ℕ) : EReal :=
  Gated.acc (gate m c r) (Gated.part (X m c) (WG m c) (WU m c) (WD m c) r d) (Gated.part (X m c) (LG m c) (LU m c) (LD m c) r d) n

/-! ## A point's sums over its 256 features are the experts' block sums -/

/-- The first expert. -/
theorem sum_first (c : Dev nD) (t : Fin cfg0.N) (p d : Fin 1024) (r : Fin 4096) (k : ℕ)
    (hr : r.val = 1024 * (t.val / 16) + p.val) (hk : k = t.val % 16) :
    ∑ s : Fin 256, actAt (bTok m c t) (bVG m c t) (bVU m c t) p s * bVD m c t (ix2 d s)
      = Gated.part (X m c) (WG m c) (WU m c) (WD m c) r d k := by
  have hk16 : k < 16 := by omega
  unfold Gated.part
  rw [dif_pos hk16]
  refine Finset.sum_congr rfl fun s _ => ?_
  have hf : (Gated.feat ⟨k, hk16⟩ s).val = (t.val % 16) * 256 + s.val := by show k * 256 + s.val = _; rw [hk]
  have e1 : rowDot (bTok m c t) (bVG m c t) p s = Gated.hid (X m c) (WG m c) r (Gated.feat ⟨k, hk16⟩ s) :=
    Finset.sum_congr rfl fun e _ => by rw [tok_read m c t p e r hr, vg_read m c t s e _ hf]; rfl
  have e2 : rowDot (bTok m c t) (bVU m c t) p s = Gated.hid (X m c) (WU m c) r (Gated.feat ⟨k, hk16⟩ s) :=
    Finset.sum_congr rfl fun e _ => by rw [tok_read m c t p e r hr, vu_read m c t s e _ hf]; rfl
  unfold actAt Gated.act
  rw [e1, e2, vd_read m c t d s _ hf]
  rfl

/-- The second expert. -/
theorem sum_second (c : Dev nD) (t : Fin cfg0.N) (p d : Fin 1024) (r : Fin 4096) (k : ℕ)
    (hr : r.val = 1024 * (t.val / 16) + p.val) (hk : k = t.val % 16) :
    ∑ s : Fin 256, actAt (bTok m c t) (bLG m c t) (bLU m c t) p s * bLD m c t (ix2 d s)
      = Gated.part (X m c) (LG m c) (LU m c) (LD m c) r d k := by
  have hk16 : k < 16 := by omega
  unfold Gated.part
  rw [dif_pos hk16]
  refine Finset.sum_congr rfl fun s _ => ?_
  have hf : (Gated.feat ⟨k, hk16⟩ s).val = (t.val % 16) * 256 + s.val := by show k * 256 + s.val = _; rw [hk]
  have e1 : rowDot (bTok m c t) (bLG m c t) p s = Gated.hid (X m c) (LG m c) r (Gated.feat ⟨k, hk16⟩ s) :=
    Finset.sum_congr rfl fun e _ => by rw [tok_read m c t p e r hr, lg_read m c t s e _ hf]; rfl
  have e2 : rowDot (bTok m c t) (bLU m c t) p s = Gated.hid (X m c) (LU m c) r (Gated.feat ⟨k, hk16⟩ s) :=
    Finset.sum_congr rfl fun e _ => by rw [tok_read m c t p e r hr, lu_read m c t s e _ hf]; rfl
  unfold actAt Gated.act
  rw [e1, e2, ld_read m c t d s _ hf]
  rfl

/-- The zero block is zero at every entry. -/
theorem zeros_apply (j : S1024x1024.Idx) : (zeros (F := Ideal)) j = 0 := by
  show Ideal.ofBits .f32 0x00000000#32 = 0
  exact Ideal.ofBits_zero_f32

/-- One `step` at a point is one step of the running value. -/
theorem step_running (c : Dev nD) (t : Fin cfg0.N) (prev : Vec Ideal S1024x1024 .f32) (p d : Fin 1024) (r : Fin 4096) (k : ℕ)
    (hr : r.val = 1024 * (t.val / 16) + p.val) (hk : k = t.val % 16) (hprev : prev (ix2 p d) = running m c r d k) :
    step (F := Ideal) (bTok m c t) (bGate m c t) (bVG m c t) (bVU m c t) (bVD m c t) (bLG m c t) (bLU m c t) (bLD m c t) prev (ix2 p d) = running m c r d (k + 1) := by
  rw [step_apply, sum_first m c t p d r k hr hk, sum_second m c t p d r k hr hk, gate_read m c t p r hr, hprev]
  rfl

/-! ## The output block after each point -/

/-- At the first point of a row block the output block is `step` of the point's blocks over the zero block. -/
theorem outs_first (c : Dev nD) (t : Fin cfg0.N) (h0 : t.val % 16 = 0) :
    outsAt0 m c t.val t.isLt = step (F := Ideal) (bTok m c t) (bGate m c t) (bVG m c t) (bVU m c t) (bVD m c t) (bLG m c t) (bLU m c t) (bLD m c t) zeros := by
  rw [outsAt0_A m c t h0]
  exact out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t) (iblk m c 6 t) (iblk m c 7 t)

/-- At every other point it is `step` over what the point before left. -/
theorem outs_later (c : Dev nD) (t : Fin cfg0.N) (h0 : ¬t.val % 16 = 0) :
    outsAt0 m c t.val t.isLt = step (F := Ideal) (bTok m c t) (bGate m c t) (bVG m c t) (bVU m c t) (bVD m c t) (bLG m c t) (bLU m c t) (bLD m c t) (outsAt0 m c (t.val - 1) (Nat.lt_of_le_of_lt (Nat.sub_le _ _) t.isLt)) := by
  rw [outsAt0_B m c t h0]
  exact out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt))

/-- After point `n`, entry (p, d) of the output block is the running value of token row `1024 * (n / 16) + p`
    after `n % 16 + 1` feature blocks. -/
theorem outs_eq (c : Dev nD) : ∀ (n : ℕ) (h : n < cfg0.N) (p d : Fin 1024) (r : Fin 4096) (k : ℕ),
    r.val = 1024 * (n / 16) + p.val → k = n % 16 →
    (outsAt0 m c n h : Vec Ideal S1024x1024 .f32) (ix2 p d) = running m c r d (k + 1) := by
  intro n
  induction n with
  | zero =>
    intro h p d r k hr hk
    have e := outs_first m c ⟨0, h⟩ rfl
    rw [show outsAt0 m c 0 h = _ from e]
    exact step_running m c ⟨0, h⟩ zeros p d r k hr hk (by rw [zeros_apply, hk]; rfl)
  | succ n ih =>
    intro h p d r k hr hk
    by_cases h0 : (n + 1) % 16 = 0
    · have e := outs_first m c ⟨n + 1, h⟩ h0
      rw [show outsAt0 m c (n + 1) h = _ from e]
      exact step_running m c ⟨n + 1, h⟩ zeros p d r k hr hk (by rw [zeros_apply, hk, h0]; rfl)
    · have e := outs_later m c ⟨n + 1, h⟩ h0
      rw [show outsAt0 m c (n + 1) h = _ from e]
      refine step_running m c ⟨n + 1, h⟩ _ p d r k hr hk ?_
      have hk1 : k = (k - 1) + 1 := by omega
      rw [hk1]
      exact ih (Nat.lt_of_succ_lt h) p d r (k - 1) (by show r.val = 1024 * (n / 16) + p.val; omega) (by omega)

end Cert.KernelIdeal.Body

end
-- ==== Proof.Result.lean ====
/-
  The kernel's result array.

  The output block of row block `i` is written back once, after the last of its sixteen feature blocks, when its
  entry (p, d) is the running value of token row `1024 * i + p` after all sixteen blocks; the four row blocks tile
  the [4096, 1024] output array, so the array ends at `running r d 16` everywhere. The host then views it as
  [2, 2048, 1024]: token (b, l) is row `2048 * b + l`. Before the region the host flattens the tokens the same way
  (the change of float format is the identity) and makes the gate column from the token mask, `1` where the bit
  is set and `0` where it is not.
-/
import proofs.«425629_j65317862638204_3_alg».proof.Proof.Running
import Idealize.ShloMosaic.Lib.StableHlo.Run

set_option maxRecDepth 16384

noncomputable section

open scoped BigOperators

namespace Cert.KernelIdeal.Body

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The output array after the region -/

/-- The [4096, 1024] output: every token row after all sixteen feature blocks. -/
def flat (c : Dev nD) : Vec Ideal S4096x1024 .f32 := fun j => running m c (j 0) (j 1) 16

/-- What a writing-back point writes is its block of `flat`. -/
theorem flushed_eq (c : Dev nD) (t : Fin cfg0.N) (hf : (cfg0.win 8).flush t = true) :
    (dats m 0 c).flushed 8 t = ((cfg0.win 8).blk t).view.read (Elt Ideal) (flat m c) := by
  have h15 : t.val % 16 = 15 := (flush0_8 t).mp hf
  have hN : t.val < 64 := lt_of_lt_of_eq t.isLt N_0
  show (cfg0.win 8).cut (grid0.coords t) ((dats m 0 c).after 8 t) = _
  rw [after0_8]
  funext j
  obtain ⟨p, d, rfl⟩ : ∃ (p d : Fin 1024), j = ix2 p d := ⟨j 0, j 1, eq_ix2 j⟩
  show (outsAt0 m c t.val t.isLt : Vec Ideal S1024x1024 .f32) (ix2 p d) = flat m c (((cfg0.win 8).blk t).view.emb (ix2 p d))
  have e0 : ((cfg0.win 8).blk t).view.emb (ix2 p d) = ix2 (⟨1024 * (t.val / 16) + p.val, by omega⟩ : Fin 4096) d :=
    funext fun a => Fin.ext (by
      match a with
      | ⟨0, _⟩ => show win0_8.index t (0 : Fin 2) * 1024 + 1 * p.val = 1024 * (t.val / 16) + p.val; rw [(idx8 t).1]; omega
      | ⟨1, _⟩ => show win0_8.index t (1 : Fin 2) * 1024 + 1 * d.val = d.val; rw [(idx8 t).2]; omega)
  rw [e0, outs_eq m c t.val t.isLt p d ⟨1024 * (t.val / 16) + p.val, by omega⟩ 15 rfl h15.symm]
  rfl

/-- An entry of the output array is in point `t`'s block iff each coordinate is in the block's range. -/
theorem mem_blk (t : Fin cfg0.N) (i : S4096x1024.Idx) :
    i ∈ ((cfg0.win 8).blk t).view.set ↔ ∀ a : Fin 2, win0_8.index t a * S1024x1024.size a ≤ (i a).val ∧ (i a).val < win0_8.index t a * S1024x1024.size a + S1024x1024.size a := by
  show i ∈ ((View.whole main_v11).slice (win0_8.rect t)).set ↔ _
  rw [View.set_slice_whole, Rect.mem_set_unit]
  exact Iff.rfl

/-- Row `i` is written back by the last point of its row block. -/
theorem cover (i : S4096x1024.Idx) : ∃ t : Fin cfg0.N, (cfg0.win 8).flush t = true ∧ i ∈ ((cfg0.win 8).blk t).view.set := by
  have hi0 : (i 0).val < 4096 := (i 0).isLt
  have hi1 : (i 1).val < 1024 := (i 1).isLt
  have hN : cfg0.N = 64 := N_0
  have ht : 16 * ((i 0).val / 1024) + 15 < cfg0.N := by omega
  refine ⟨⟨16 * ((i 0).val / 1024) + 15, ht⟩, (flush0_8 _).mpr (by show (16 * ((i 0).val / 1024) + 15) % 16 = 15; omega), ?_⟩
  rw [mem_blk]
  have e0 : win0_8.index ⟨16 * ((i 0).val / 1024) + 15, ht⟩ (0 : Fin 2) = (16 * ((i 0).val / 1024) + 15) / 16 := (idx8 _).1
  have e1 : win0_8.index ⟨16 * ((i 0).val / 1024) + 15, ht⟩ (1 : Fin 2) = 0 := (idx8 _).2
  intro a
  match a with
  | ⟨0, _⟩ =>
    show win0_8.index _ (0 : Fin 2) * 1024 ≤ (i 0).val ∧ (i 0).val < win0_8.index _ (0 : Fin 2) * 1024 + 1024
    rw [e0]; omega
  | ⟨1, _⟩ =>
    show win0_8.index _ (1 : Fin 2) * 1024 ≤ (i 1).val ∧ (i 1).val < win0_8.index _ (1 : Fin 2) * 1024 + 1024
    rw [e1]; omega

/-- The output array after the region. -/
theorem final (c : Dev nD) : (dats m 0 c).arrAt 8 cfg0.N = flat m c :=
  (dats m 0 c).arrAt_eq_of_cover 8 (flat m c) (flushed_eq m c) cover

/-! ## The result, after the host's reshape -/

/-- The kernel's result: the output array viewed as [2, 2048, 1024]. -/
def result (c : Dev nD) : Vec Ideal S2x2048x1024 .f32 :=
  shapeCast S2x2048x1024 (flat m c) shapeCasts_S4096x1024_S2x2048x1024

theorem tail_eq (c : Dev nD) : Pipeline.afterTail₀ cfgs (dats m) 0 (V0 m) [hostOps1] c main_v12 = result m c := by
  unfold Pipeline.afterTail₀
  show StableHlo.after hostOps1 _ (Proc.devRef .tc main_v12) = _
  after_results
  rw [show Pipeline.withArrays (cfgs 0).spec c (V0 m c) (fun w => (dats m 0 c).arrAt w (cfgs 0).N) (Proc.tc.devRef main_v11) = flat m c from
    (Pipeline.withArrays_arr spec0 launch0.win.arr_inj c _ _ 8).trans (final m c)]
  rfl

/-- Token (b, l), column `d` of the result is row `2048 * b + l`, column `d` of the output array. -/
theorem result_apply (c : Dev nD) (b : Fin 2) (l : Fin 2048) (d : Fin 1024) (r : Fin 4096) (hr : r.val = 2048 * b.val + l.val) :
    result m c (ix3 b l d) = running m c r d 16 := by
  unfold result
  rw [shapeCast_apply (flat m c) shapeCasts_S4096x1024_S2x2048x1024 (ix3 b l d) (ix2 r d) (by
    rw [Shape.rowMajor_val_two, Shape.rowMajor_val_three]
    show r.val * 1024 + d.val = (b.val * 2048 + l.val) * 1024 + d.val
    omega)]
  rfl

/-- The kernel's run, read: the result buffer at `result`, the arguments as they were. -/
theorem run : θ_run defs (onTc (τ := τ) (main (F := Ideal))) ⟨m, fun _ => 0, ρ⟩ (fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c)))⟩) (run_main m ρ)

/-! ## What the host prepares before the region -/

/-- The kernel's token rows are the token array flattened (the change of float format is the identity). -/
theorem tokens_eq (c : Dev nD) :
    tokens m c = truncf (F := Ideal) .bf16 (shapeCast S4096x1024 (m ((c.tc : Thread nD τ).loc main_arg0)) shapeCasts_S2x2048x1024_S4096x1024) bitsLt_bf16_f32 := by
  show StableHlo.after hostOps0 (fun b => m (c, b)) (Proc.devRef .tc main_v10) = _
  after_results
  rfl

/-- Row `r` of the flattened tokens is token (r / 2048, r % 2048). -/
theorem X_apply (c : Dev nD) (r : Fin 4096) (e : Fin 1024) :
    X m c r e = m ((c.tc : Thread nD τ).loc main_arg0) (ix3 (⟨r.val / 2048, by have := r.isLt; omega⟩ : Fin 2) (⟨r.val % 2048, Nat.mod_lt _ (by decide)⟩ : Fin 2048) e) := by
  show tokens m c (ix2 r e) = _
  rw [tokens_eq]
  show shapeCast S4096x1024 (m ((c.tc : Thread nD τ).loc main_arg0)) shapeCasts_S2x2048x1024_S4096x1024 (ix2 r e) = _
  have hk : (S2x2048x1024.rowMajor (ix3 (⟨r.val / 2048, by have := r.isLt; omega⟩ : Fin 2) (⟨r.val % 2048, Nat.mod_lt _ (by decide)⟩ : Fin 2048) e)).val
      = (S4096x1024.rowMajor (ix2 r e)).val := by
    rw [Shape.rowMajor_val_two, Shape.rowMajor_val_three]
    show (r.val / 2048 * 2048 + r.val % 2048) * 1024 + e.val = r.val * 1024 + e.val
    omega
  exact shapeCast_apply _ shapeCasts_S2x2048x1024_S4096x1024 (ix2 r e) _ hk

theorem WG_apply (c : Dev nD) (f : Fin 4096) (e : Fin 1024) : WG m c f e = m ((c.tc : Thread nD τ).loc main_arg2) (ix2 f e) := by
  show V m c main_arg2 (ix2 f e) = _; rw [V_main_arg2]
theorem WU_apply (c : Dev nD) (f : Fin 4096) (e : Fin 1024) : WU m c f e = m ((c.tc : Thread nD τ).loc main_arg3) (ix2 f e) := by
  show V m c main_arg3 (ix2 f e) = _; rw [V_main_arg3]
theorem WD_apply (c : Dev nD) (d : Fin 1024) (f : Fin 4096) : WD m c d f = m ((c.tc : Thread nD τ).loc main_arg4) (ix2 d f) := by
  show V m c main_arg4 (ix2 d f) = _; rw [V_main_arg4]
theorem LG_apply (c : Dev nD) (f : Fin 4096) (e : Fin 1024) : LG m c f e = m ((c.tc : Thread nD τ).loc main_arg5) (ix2 f e) := by
  show V m c main_arg5 (ix2 f e) = _; rw [V_main_arg5]
theorem LU_apply (c : Dev nD) (f : Fin 4096) (e : Fin 1024) : LU m c f e = m ((c.tc : Thread nD τ).loc main_arg6) (ix2 f e) := by
  show V m c main_arg6 (ix2 f e) = _; rw [V_main_arg6]
theorem LD_apply (c : Dev nD) (d : Fin 1024) (f : Fin 4096) : LD m c d f = m ((c.tc : Thread nD τ).loc main_arg7) (ix2 d f) := by
  show V m c main_arg7 (ix2 d f) = _; rw [V_main_arg7]

end Cert.KernelIdeal.Body

end
-- ==== Proof.RefSide.lean ====
/-
  The reference, entry by entry: a select between two experts' values.

  The reference multiplies the [2, 2048, 1024] token array with each weight matrix on the host, applies `silu`
  written out as `h * (1 / (1 + exp (-h)))`, multiplies by the up product, contracts with the down weights over all
  4096 features, and selects by the token's mask bit. On the extended reals `1 / (1 + exp (-h))` is `logistic h`
  by definition, so at token (b, l) — row `2048 * b + l` of the flattened tokens — and column `d` each branch
  is `Gated.expert`.
-/
import proofs.«425629_j65317862638204_3_alg».proof.Proof.Gen.ReferenceIdeal.Read
import proofs.«425629_j65317862638204_3_alg».proof.Proof.Spec

noncomputable section

open scoped BigOperators

namespace Cert.ReferenceIdeal.RefValue

open Idealize.ShloMosaic Idealize.ShloMosaic.TcCoe Idealize.ShloMosaic.ValueIdx
open Cert.ReferenceIdeal Cert.ReferenceIdeal.Read

/-- The float pattern of `1.0` is the real one. -/
theorem one32 : Ideal.ofBits .f32 0x3F800000#32 = 1 := by
  simp [Ideal.ofBits, Ideal.ieee, -EReal.coe_mul]; norm_num

/-- The tokens as 4096 rows: row `r` is token (r / 2048, r % 2048). -/
def rowsOf (x0 : (⟨S2x2048x1024, .f32⟩ : BufTy).Contents (Elt Ideal)) : Fin 4096 → Fin 1024 → EReal :=
  fun r e => x0 (ix3 (⟨r.val / 2048, by have := r.isLt; omega⟩ : Fin 2) (⟨r.val % 2048, Nat.mod_lt _ (by decide)⟩ : Fin 2048) e)
/-- A [4096, 1024] weight matrix by coordinates. -/
def mat (w : (⟨S4096x1024, .f32⟩ : BufTy).Contents (Elt Ideal)) : Fin 4096 → Fin 1024 → EReal := fun f e => w (ix2 f e)
/-- A [1024, 4096] weight matrix by coordinates. -/
def matT (w : (⟨S1024x4096, .f32⟩ : BufTy).Contents (Elt Ideal)) : Fin 1024 → Fin 4096 → EReal := fun d f => w (ix2 d f)

/-! ## The first expert's branch -/

theorem hid_v7 (x0 : (⟨S2x2048x1024, .f32⟩ : BufTy).Contents (Elt Ideal)) (w : (⟨S4096x1024, .f32⟩ : BufTy).Contents (Elt Ideal)) (b : Fin 2) (l : Fin 2048) (f r : Fin 4096)
    (hr : r.val = 2048 * b.val + l.val) :
    val_main_v7 (F := Ideal) x0 w (ix3 b l f) = Gated.hid (rowsOf x0) (mat w) r f := by
  have hb := b.isLt
  have hl := l.isLt
  rw [val_main_v7_apply]
  unfold Gated.hid
  refine Finset.sum_congr rfl fun e _ => ?_
  have e1 : lidx_main_v7 (ix3 b l f) e = ix3 (⟨r.val / 2048, by have := r.isLt; omega⟩ : Fin 2) (⟨r.val % 2048, Nat.mod_lt _ (by decide)⟩ : Fin 2048) e :=
    funext fun a => Fin.ext (by
      match a with
      | ⟨0, _⟩ => show b.val = r.val / 2048; omega
      | ⟨1, _⟩ => show l.val = r.val % 2048; omega
      | ⟨2, _⟩ => rfl)
  have e2 : ridx_main_v7 (ix3 b l f) e = ix2 f e :=
    funext fun a => Fin.ext (by
      match a with
      | ⟨0, _⟩ => rfl
      | ⟨1, _⟩ => rfl)
  rw [e1, e2]
  rfl

theorem hid_v9 (x0 : (⟨S2x2048x1024, .f32⟩ : BufTy).Contents (Elt Ideal)) (w : (⟨S4096x1024, .f32⟩ : BufTy).Contents (Elt Ideal)) (b : Fin 2) (l : Fin 2048) (f r : Fin 4096)
    (hr : r.val = 2048 * b.val + l.val) :
    val_main_v9 (F := Ideal) x0 w (ix3 b l f) = Gated.hid (rowsOf x0) (mat w) r f := by
  have hb := b.isLt
  have hl := l.isLt
  rw [val_main_v9_apply]
  unfold Gated.hid
  refine Finset.sum_congr rfl fun e _ => ?_
  have e1 : lidx_main_v9 (ix3 b l f) e = ix3 (⟨r.val / 2048, by have := r.isLt; omega⟩ : Fin 2) (⟨r.val % 2048, Nat.mod_lt _ (by decide)⟩ : Fin 2048) e :=
    funext fun a => Fin.ext (by
      match a with
      | ⟨0, _⟩ => show b.val = r.val / 2048; omega
      | ⟨1, _⟩ => show l.val = r.val % 2048; omega
      | ⟨2, _⟩ => rfl)
  have e2 : ridx_main_v9 (ix3 b l f) e = ix2 f e :=
    funext fun a => Fin.ext (by
      match a with
      | ⟨0, _⟩ => rfl
      | ⟨1, _⟩ => rfl)
  rw [e1, e2]
  rfl

/-- jax's `silu` written out — `h * (1 / (1 + exp (-h)))` — is `h * logistic h`. -/
theorem silu_v8 (x0 : (⟨S2x2048x1024, .f32⟩ : BufTy).Contents (Elt Ideal)) (w : (⟨S4096x1024, .f32⟩ : BufTy).Contents (Elt Ideal)) (i : S2x2048x4096.Idx) :
    val_main_v8 (F := Ideal) x0 w i = val_main_v7 (F := Ideal) x0 w i * Ideal.logistic (val_main_v7 (F := Ideal) x0 w i) := by
  rw [val_main_v8_apply, val_main_call0_v5_apply, val_main_call0_v4_apply, val_main_call0_cst_0_apply, val_main_call0_v3_apply,
    val_main_call0_v2_apply, val_main_call0_cst_apply, val_main_call0_v1_apply, val_main_call0_v0_apply]
  simp only [Ideal.mulf_def, Ideal.hostDivf_def, Ideal.addf_def, Ideal.hostUnary_exp_def, Ideal.hostNegf_def, Ideal.negf_def,
    Ideal.ofBits_def, one32]
  rfl

theorem act_v10 (x0 : (⟨S2x2048x1024, .f32⟩ : BufTy).Contents (Elt Ideal)) (wg wu : (⟨S4096x1024, .f32⟩ : BufTy).Contents (Elt Ideal)) (b : Fin 2) (l : Fin 2048) (f r : Fin 4096)
    (hr : r.val = 2048 * b.val + l.val) :
    val_main_v10 (F := Ideal) x0 wg wu (ix3 b l f) = Gated.act (rowsOf x0) (mat wg) (mat wu) r f := by
  rw [val_main_v10_apply, silu_v8, hid_v7 x0 wg b l f r hr, hid_v9 x0 wu b l f r hr]
  rfl

theorem expert_v11 (x0 : (⟨S2x2048x1024, .f32⟩ : BufTy).Contents (Elt Ideal)) (wg wu : (⟨S4096x1024, .f32⟩ : BufTy).Contents (Elt Ideal)) (wd : (⟨S1024x4096, .f32⟩ : BufTy).Contents (Elt Ideal))
    (b : Fin 2) (l : Fin 2048) (d : Fin 1024) (r : Fin 4096) (hr : r.val = 2048 * b.val + l.val) :
    val_main_v11 (F := Ideal) x0 wg wu wd (ix3 b l d) = Gated.expert (rowsOf x0) (mat wg) (mat wu) (matT wd) r d := by
  rw [val_main_v11_apply]
  unfold Gated.expert
  refine Finset.sum_congr rfl fun f _ => ?_
  have e1 : lidx_main_v11 (ix3 b l d) f = ix3 b l f :=
    funext fun a => Fin.ext (by
      match a with
      | ⟨0, _⟩ => rfl
      | ⟨1, _⟩ => rfl
      | ⟨2, _⟩ => rfl)
  have e2 : ridx_main_v11 (ix3 b l d) f = ix2 d f :=
    funext fun a => Fin.ext (by
      match a with
      | ⟨0, _⟩ => rfl
      | ⟨1, _⟩ => rfl)
  rw [e1, e2, act_v10 x0 wg wu b l f r hr]
  rfl

/-! ## The second expert's branch -/

theorem hid_v12 (x0 : (⟨S2x2048x1024, .f32⟩ : BufTy).Contents (Elt Ideal)) (w : (⟨S4096x1024, .f32⟩ : BufTy).Contents (Elt Ideal)) (b : Fin 2) (l : Fin 2048) (f r : Fin 4096)
    (hr : r.val = 2048 * b.val + l.val) :
    val_main_v12 (F := Ideal) x0 w (ix3 b l f) = Gated.hid (rowsOf x0) (mat w) r f := by
  have hb := b.isLt
  have hl := l.isLt
  rw [val_main_v12_apply]
  unfold Gated.hid
  refine Finset.sum_congr rfl fun e _ => ?_
  have e1 : lidx_main_v12 (ix3 b l f) e = ix3 (⟨r.val / 2048, by have := r.isLt; omega⟩ : Fin 2) (⟨r.val % 2048, Nat.mod_lt _ (by decide)⟩ : Fin 2048) e :=
    funext fun a => Fin.ext (by
      match a with
      | ⟨0, _⟩ => show b.val = r.val / 2048; omega
      | ⟨1, _⟩ => show l.val = r.val % 2048; omega
      | ⟨2, _⟩ => rfl)
  have e2 : ridx_main_v12 (ix3 b l f) e = ix2 f e :=
    funext fun a => Fin.ext (by
      match a with
      | ⟨0, _⟩ => rfl
      | ⟨1, _⟩ => rfl)
  rw [e1, e2]
  rfl

theorem hid_v14 (x0 : (⟨S2x2048x1024, .f32⟩ : BufTy).Contents (Elt Ideal)) (w : (⟨S4096x1024, .f32⟩ : BufTy).Contents (Elt Ideal)) (b : Fin 2) (l : Fin 2048) (f r : Fin 4096)
    (hr : r.val = 2048 * b.val + l.val) :
    val_main_v14 (F := Ideal) x0 w (ix3 b l f) = Gated.hid (rowsOf x0) (mat w) r f := by
  have hb := b.isLt
  have hl := l.isLt
  rw [val_main_v14_apply]
  unfold Gated.hid
  refine Finset.sum_congr rfl fun e _ => ?_
  have e1 : lidx_main_v14 (ix3 b l f) e = ix3 (⟨r.val / 2048, by have := r.isLt; omega⟩ : Fin 2) (⟨r.val % 2048, Nat.mod_lt _ (by decide)⟩ : Fin 2048) e :=
    funext fun a => Fin.ext (by
      match a with
      | ⟨0, _⟩ => show b.val = r.val / 2048; omega
      | ⟨1, _⟩ => show l.val = r.val % 2048; omega
      | ⟨2, _⟩ => rfl)
  have e2 : ridx_main_v14 (ix3 b l f) e = ix2 f e :=
    funext fun a => Fin.ext (by
      match a with
      | ⟨0, _⟩ => rfl
      | ⟨1, _⟩ => rfl)
  rw [e1, e2]
  rfl

/-- jax's `silu` written out — `h * (1 / (1 + exp (-h)))` — is `h * logistic h`. -/
theorem silu_v13 (x0 : (⟨S2x2048x1024, .f32⟩ : BufTy).Contents (Elt Ideal)) (w : (⟨S4096x1024, .f32⟩ : BufTy).Contents (Elt Ideal)) (i : S2x2048x4096.Idx) :
    val_main_v13 (F := Ideal) x0 w i = val_main_v12 (F := Ideal) x0 w i * Ideal.logistic (val_main_v12 (F := Ideal) x0 w i) := by
  rw [val_main_v13_apply, val_main_call1_v5_apply, val_main_call1_v4_apply, val_main_call1_cst_0_apply, val_main_call1_v3_apply,
    val_main_call1_v2_apply, val_main_call1_cst_apply, val_main_call1_v1_apply, val_main_call1_v0_apply]
  simp only [Ideal.mulf_def, Ideal.hostDivf_def, Ideal.addf_def, Ideal.hostUnary_exp_def, Ideal.hostNegf_def, Ideal.negf_def,
    Ideal.ofBits_def, one32]
  rfl

theorem act_v15 (x0 : (⟨S2x2048x1024, .f32⟩ : BufTy).Contents (Elt Ideal)) (wg wu : (⟨S4096x1024, .f32⟩ : BufTy).Contents (Elt Ideal)) (b : Fin 2) (l : Fin 2048) (f r : Fin 4096)
    (hr : r.val = 2048 * b.val + l.val) :
    val_main_v15 (F := Ideal) x0 wg wu (ix3 b l f) = Gated.act (rowsOf x0) (mat wg) (mat wu) r f := by
  rw [val_main_v15_apply, silu_v13, hid_v12 x0 wg b l f r hr, hid_v14 x0 wu b l f r hr]
  rfl

theorem expert_v16 (x0 : (⟨S2x2048x1024, .f32⟩ : BufTy).Contents (Elt Ideal)) (wg wu : (⟨S4096x1024, .f32⟩ : BufTy).Contents (Elt Ideal)) (wd : (⟨S1024x4096, .f32⟩ : BufTy).Contents (Elt Ideal))
    (b : Fin 2) (l : Fin 2048) (d : Fin 1024) (r : Fin 4096) (hr : r.val = 2048 * b.val + l.val) :
    val_main_v16 (F := Ideal) x0 wg wu wd (ix3 b l d) = Gated.expert (rowsOf x0) (mat wg) (mat wu) (matT wd) r d := by
  rw [val_main_v16_apply]
  unfold Gated.expert
  refine Finset.sum_congr rfl fun f _ => ?_
  have e1 : lidx_main_v16 (ix3 b l d) f = ix3 b l f :=
    funext fun a => Fin.ext (by
      match a with
      | ⟨0, _⟩ => rfl
      | ⟨1, _⟩ => rfl
      | ⟨2, _⟩ => rfl)
  have e2 : ridx_main_v16 (ix3 b l d) f = ix2 d f :=
    funext fun a => Fin.ext (by
      match a with
      | ⟨0, _⟩ => rfl
      | ⟨1, _⟩ => rfl)
  rw [e1, e2, act_v15 x0 wg wu b l f r hr]
  rfl

/-! ## The select -/

/-- The reference's result at token (b, l), column `d`: the first expert where the token's mask bit is set, the
    second where it is not. -/
theorem result_apply (x0 : (⟨S2x2048x1024, .f32⟩ : BufTy).Contents (Elt Ideal)) (x1 : (⟨S2x2048, .i32⟩ : BufTy).Contents (Elt Ideal)) (x2 x3 : (⟨S4096x1024, .f32⟩ : BufTy).Contents (Elt Ideal))
    (x4 : (⟨S1024x4096, .f32⟩ : BufTy).Contents (Elt Ideal)) (x5 x6 : (⟨S4096x1024, .f32⟩ : BufTy).Contents (Elt Ideal)) (x7 : (⟨S1024x4096, .f32⟩ : BufTy).Contents (Elt Ideal))
    (b : Fin 2) (l : Fin 2048) (d : Fin 1024) (r : Fin 4096) (hr : r.val = 2048 * b.val + l.val) :
    val_main_v18 (F := Ideal) x0 x1 x2 x3 x4 x5 x6 x7 (ix3 b l d)
      = Scalar.select (val_main_v6 (F := Ideal) x1 (ix2 b l))
          (Gated.expert (rowsOf x0) (mat x2) (mat x3) (matT x4) r d)
          (Gated.expert (rowsOf x0) (mat x5) (mat x6) (matT x7) r d) := by
  rw [val_main_v18_apply, val_main_call2_v0_apply, val_main_v17_apply, expert_v11 x0 x2 x3 x4 b l d r hr,
    expert_v16 x0 x5 x6 x7 b l d r hr]
  have e : idx_main_v17 (idx_main_call2_v0 (ix3 b l d)) = ix2 b l :=
    funext fun a => Fin.ext (by
      match a with
      | ⟨0, _⟩ => rfl
      | ⟨1, _⟩ => rfl)
  rw [e]

end Cert.ReferenceIdeal.RefValue

end
-- ==== Proof.Bridge.lean ====
/-
  The kernel's result is the reference's.

  Per token row the kernel's gate is `1` where the token's mask bit is set and `0` where it is not (the host makes it
  from the same mask the reference selects by), so the running value after all sixteen feature blocks is the first
  expert's value on masked tokens and the second expert's on the others: the reference's select. Both sides read
  the same arrays: the kernel's token rows are the reference's tokens flattened, and the weights are passed as they
  are.
-/
import proofs.«425629_j65317862638204_3_alg».proof.Proof.Result
import proofs.«425629_j65317862638204_3_alg».proof.Proof.RefSide

set_option maxRecDepth 16384

noncomputable section

open scoped BigOperators

namespace Cert.Bridge

open Idealize.ShloMosaic Idealize.ShloMosaic.TcCoe Idealize.ShloMosaic.ValueIdx Idealize.SL.Sem
open Cert.KernelIdeal Cert.KernelIdeal.Gen Cert.KernelIdeal.Body
open Cert.ReferenceIdeal.RefValue (rowsOf mat matT)

variable (m : (ℓ : Loc nD τ sig) → Buf (Elt Ideal) ℓ)

/-- The running value after all sixteen blocks under a gate made from a mask bit is the select by that bit. -/
theorem gate_select (β : BitVec 1) (X WG WU LG LU : Fin 4096 → Fin 1024 → EReal) (WD LD : Fin 1024 → Fin 4096 → EReal)
    (r : Fin 4096) (d : Fin 1024) :
    Gated.acc (FloatOps.uitofp (F := Ideal) .f32 β) (Gated.part X WG WU WD r d) (Gated.part X LG LU LD r d) 16
      = Scalar.select β (Gated.expert X WG WU WD r d) (Gated.expert X LG LU LD r d) := by
  have hβ : β = 1#1 ∨ β = 0#1 := by revert β; decide
  rcases hβ with rfl | rfl
  · have h1 : FloatOps.uitofp (F := Ideal) .f32 (1#1 : BitVec 1) = 1 := by
      show ((((1#1 : BitVec 1).toNat : ℝ)) : EReal) = 1
      norm_num
    rw [h1, Gated.acc_final_one]
    rfl
  · have h0 : FloatOps.uitofp (F := Ideal) .f32 (0#1 : BitVec 1) = 0 := by
      show ((((0#1 : BitVec 1).toNat : ℝ)) : EReal) = 0
      norm_num
    rw [h0, Gated.acc_final_zero]
    rfl

/-- The gate column the host prepares: the token mask, flattened, as `0` / `1`. The mask is the same
    expression of the token types in both programs. -/
theorem gates_eq (c : Dev nD) :
    gates m c = uitofp (F := Ideal) .f32 (shapeCast S4096x1 (Cert.ReferenceIdeal.Read.val_main_v6 (F := Ideal) (m ((c.tc : Thread nD τ).loc main_arg1))) shapeCasts_S2x2048_S4096x1) := by
  show StableHlo.after hostOps0 (fun b => m (c, b)) (Proc.devRef .tc main_v8) = _
  after_results
  rfl

/-- The gate of token row `2048 * b + l` is token (b, l)'s mask bit as a number. -/
theorem gate_apply (c : Dev nD) (b : Fin 2) (l : Fin 2048) (r : Fin 4096) (hr : r.val = 2048 * b.val + l.val) :
    gate m c r = FloatOps.uitofp (F := Ideal) .f32 (Cert.ReferenceIdeal.Read.val_main_v6 (F := Ideal) (m ((c.tc : Thread nD τ).loc main_arg1)) (ix2 b l)) := by
  show gates m c (ix2 r 0) = _
  rw [gates_eq]
  show FloatOps.uitofp (F := Ideal) .f32 (shapeCast S4096x1 (Cert.ReferenceIdeal.Read.val_main_v6 (F := Ideal) (m ((c.tc : Thread nD τ).loc main_arg1))) shapeCasts_S2x2048_S4096x1 (ix2 r 0)) = _
  have hk : (S2x2048.rowMajor (ix2 b l)).val = (S4096x1.rowMajor (ix2 r (0 : Fin 1))).val := by
    rw [Shape.rowMajor_val_two, Shape.rowMajor_val_two]
    show b.val * 2048 + l.val = r.val * 1 + 0
    omega
  exact congrArg (FloatOps.uitofp (F := Ideal) .f32) (shapeCast_apply _ shapeCasts_S2x2048_S4096x1 (ix2 r 0) (ix2 b l) hk)

/-- The kernel's result array is the reference's result term of the same arguments. -/
theorem result_eq (c : Dev nD) :
    result m c = Cert.ReferenceIdeal.Read.val_main_v18 (F := Ideal) (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := by
  funext i
  obtain ⟨b, l, d, rfl⟩ : ∃ (b : Fin 2) (l : Fin 2048) (d : Fin 1024), i = ix3 b l d := ⟨i 0, i 1, i 2, eq_ix3 i⟩
  have hb := b.isLt
  have hl := l.isLt
  have hlt : 2048 * b.val + l.val < 4096 := by omega
  have hr : (⟨2048 * b.val + l.val, hlt⟩ : Fin 4096).val = 2048 * b.val + l.val := rfl
  rw [result_apply m c b l d ⟨2048 * b.val + l.val, hlt⟩ hr,
    Cert.ReferenceIdeal.RefValue.result_apply _ _ _ _ _ _ _ _ b l d ⟨2048 * b.val + l.val, hlt⟩ hr]
  unfold running
  rw [gate_apply m c b l ⟨2048 * b.val + l.val, hlt⟩ hr]
  have eX : X m c = rowsOf (m ((c.tc : Thread nD τ).loc main_arg0)) := funext fun r => funext fun e => X_apply m c r e
  have eWG : WG m c = mat (m ((c.tc : Thread nD τ).loc main_arg2)) := funext fun f => funext fun e => WG_apply m c f e
  have eWU : WU m c = mat (m ((c.tc : Thread nD τ).loc main_arg3)) := funext fun f => funext fun e => WU_apply m c f e
  have eWD : WD m c = matT (m ((c.tc : Thread nD τ).loc main_arg4)) := funext fun d' => funext fun f => WD_apply m c d' f
  have eLG : LG m c = mat (m ((c.tc : Thread nD τ).loc main_arg5)) := funext fun f => funext fun e => LG_apply m c f e
  have eLU : LU m c = mat (m ((c.tc : Thread nD τ).loc main_arg6)) := funext fun f => funext fun e => LU_apply m c f e
  have eLD : LD m c = matT (m ((c.tc : Thread nD τ).loc main_arg7)) := funext fun d' => funext fun f => LD_apply m c d' f
  rw [eX, eWG, eWU, eWD, eLG, eLU, eLD]
  exact gate_select _ _ _ _ _ _ _ _ _ _

end Cert.Bridge

end
-- ==== Proof.lean ====
/-
  A token-wise choice between two gated MLP experts, computed two ways.

  The reference computes both experts for every token — `silu` of the gate product times the up product, contracted
  with the down weights over all 4096 features — and selects, token by token, the first expert where the token's mask
  bit is set and the second where it is not. The kernel walks the features in 16 blocks of 256 for each block of 1024
  token rows and keeps one running block: `acc ← (acc + g * P) + (1 - g) * Q`, with `P`, `Q` the two experts' sums
  over the current feature block and `g` the token's mask bit as `0` or `1`, starting from zero.

  On the extended reals the two agree with no finiteness assumed: with `g = 1` each step adds `P` (`1 * P = P`,
  `(1 - 1) * Q = 0`), with `g = 0` it adds `Q`; sixteen block sums of 256 features are the sum over all 4096
  (addition is commutative and associative); a matrix product into a zero accumulator is the plain sum; a change of
  float format is the identity; and `1 / (1 + exp (-h))` is `logistic h` by definition.

  The modules: Spec (the running value and its two closed forms), Pieces and StepValue (one grid point as one function,
  and that function at an entry), Running (the output block after each point, by induction on the point), Result (the
  output array, the host's reshape, the kernel's run), RefSide (the reference at an entry), Bridge (the two are equal).
  The ideal pass rewrote nothing, so `preserves` is `True`; the three frames are the generated frame runs.
-/
import proofs.«425629_j65317862638204_3_alg».proof.Defs
import proofs.«425629_j65317862638204_3_alg».proof.Proof.Gen.Kernel
import proofs.«425629_j65317862638204_3_alg».proof.Proof.Gen.Kernel.Skeleton
import proofs.«425629_j65317862638204_3_alg».proof.Proof.Gen.Kernel.Launch
import proofs.«425629_j65317862638204_3_alg».proof.Proof.Gen.Kernel.Points
import proofs.«425629_j65317862638204_3_alg».proof.Proof.Gen.Kernel.Frame
import proofs.«425629_j65317862638204_3_alg».proof.Proof.Gen.KernelIdeal
import proofs.«425629_j65317862638204_3_alg».proof.Proof.Gen.KernelIdeal.Skeleton
import proofs.«425629_j65317862638204_3_alg».proof.Proof.Gen.KernelIdeal.Launch
import proofs.«425629_j65317862638204_3_alg».proof.Proof.Gen.KernelIdeal.Points
import proofs.«425629_j65317862638204_3_alg».proof.Proof.Gen.KernelIdeal.Frame
import proofs.«425629_j65317862638204_3_alg».proof.Proof.Gen.ReferenceIdeal
import proofs.«425629_j65317862638204_3_alg».proof.Proof.Gen.ReferenceIdeal.Run
import proofs.«425629_j65317862638204_3_alg».proof.Proof.Gen.ReferenceIdeal.Read
import proofs.«425629_j65317862638204_3_alg».proof.Proof.Gen.Pre_finite_inputs
import proofs.«425629_j65317862638204_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the same result: the kernel's result array is
    the reference's result term of the same arguments (`Bridge.result_eq`). -/
theorem algebraic : Cert.algebraic_KernelIdeal_ReferenceIdeal := by
  intro m ρ m' ρ' _ hagree
  refine ⟨fun c => Cert.KernelIdeal.Body.result m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v18_eq, h0, h1, h2, h3, h4, h5, h6, h7]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
